-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S10000x64 : Shape := ⟨2, ![10000, 64]⟩
abbrev S1000x64 : Shape := ⟨2, ![1000, 64]⟩
abbrev S2000x64 : Shape := ⟨2, ![2000, 64]⟩
abbrev S10x64 : Shape := ⟨2, ![10, 64]⟩
abbrev S5x64 : Shape := ⟨2, ![5, 64]⟩
abbrev S2x2000000 : Shape := ⟨2, ![2, 2000000]⟩
abbrev S10000 : Shape := ⟨1, ![10000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S2000x64 : S_.BroadcastsInDim S2000x64 (![] : Fin 0 → Fin S2000x64.rank)
  reducesTo_S2000x64_S_d0_1 : S2000x64.ReducesTo [0, 1] S_
  bcast_S_S10x64 : S_.BroadcastsInDim S10x64 (![] : Fin 0 → Fin S10x64.rank)
  reducesTo_S10x64_S_d0_1 : S10x64.ReducesTo [0, 1] S_
  bcast_S_S5x64 : S_.BroadcastsInDim S5x64 (![] : Fin 0 → Fin S5x64.rank)
  reducesTo_S5x64_S_d0_1 : S5x64.ReducesTo [0, 1] S_

variable [Facts]

def fn_part1 {F : FTy → Type} [FloatOps F] (main_arg4 : FVec F S10x64 .f32) (main_arg5 : FVec F S5x64 .f32) (main_v13 : IVec S_ 1) (main_v16 : IVec S2000x64 1) : IVec S_ 1 :=
  let main_c_5 : IVec S_ 1 := constantI S_ 1 1#1
  let main_v17 : IVec S_ 1 := (fun x v => Host.reduce IntOp.andi x v reducesTo_S2000x64_S_d0_1 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S5x64 .f32 := Host.absf main_arg5
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  main_v28

def fn {F : FTy → Type} [FloatOps F] (main_arg0 : FVec F S50000x64 .f32) (main_arg1 : FVec F S10000x64 .f32) (main_arg2 : FVec F S1000x64 .f32) (main_arg3 : FVec F S2000x64 .f32) (main_arg4 : FVec F S10x64 .f32) (main_arg5 : FVec F S5x64 .f32) (main_arg6 : IVec S2x2000000 32) (main_arg7 : IVec S10000 32) (main_arg8 : IVec S10000 32) (main_arg9 : IVec S10000 32) (main_arg10 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S2000x64 .f32 := Host.absf main_arg3
  let main_cst_4 : FVec F S_ .f32 := constant S_ .f32 0x7F800000#32
  let main_v15 : FVec F S2000x64 .f32 := broadcastInDim S2000x64 ![] bcast_S_S2000x64 main_cst_4
  let main_v16 : IVec S2000x64 1 := cmpf .olt main_v14 main_v15
  fn_part1 (F := F) main_arg4 main_arg5 main_v13 main_v16
-- ==== Kernel.lean ====
abbrev S50000x64 : Shape := ⟨2, ![50000, 64]⟩
abbrev S10000x64 : Shape := ⟨2, ![10000, 64]⟩
abbrev S1000x64 : Shape := ⟨2, ![1000, 64]⟩
abbrev S2000x64 : Shape := ⟨2, ![2000, 64]⟩
abbrev S10x64 : Shape := ⟨2, ![10, 64]⟩
abbrev S5x64 : Shape := ⟨2, ![5, 64]⟩
abbrev S2x2000000 : Shape := ⟨2, ![2, 2000000]⟩
abbrev S10000 : Shape := ⟨1, ![10000]⟩
abbrev S50000 : Shape := ⟨1, ![50000]⟩
abbrev S_ : Shape := ⟨0, ![]⟩
abbrev S50000x1 : Shape := ⟨2, ![50000, 1]⟩
abbrev S10000x1 : Shape := ⟨2, ![10000, 1]⟩
abbrev S60000x64 : Shape := ⟨2, ![60000, 64]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S8192x64 : Shape := ⟨2, ![8192, 64]⟩
abbrev S8192 : Shape := ⟨1, ![8192]⟩

abbrev nBuf : Space → Nat
  | .hbm => 84
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S10000x64, .f32⟩
  | .hbm, ⟨2, _⟩ => ⟨S1000x64, .f32⟩
  | .hbm, ⟨3, _⟩ => ⟨S2000x64, .f32⟩
  | .hbm, ⟨4, _⟩ => ⟨S10x64, .f32⟩
  | .hbm, ⟨5, _⟩ => ⟨S5x64, .f32⟩
  | .hbm, ⟨6, _⟩ => ⟨S2x2000000, .i32⟩
  | .hbm, ⟨7, _⟩ => ⟨S10000, .i32⟩
  | .hbm, ⟨8, _⟩ => ⟨S10000, .i32⟩
  | .hbm, ⟨9, _⟩ => ⟨S10000, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S10000, .i32⟩
  | .hbm, ⟨26, _⟩ => ⟨S10000, .i1⟩
  | .hbm, ⟨27, _⟩ => ⟨S_, .i32⟩
  | .hbm, ⟨28, _⟩ => ⟨S10000, .i32⟩
  | .hbm, ⟨29, _⟩ => ⟨S10000, .i32⟩
  | .hbm, ⟨30, _⟩ => ⟨S10000, .i32⟩
  | .hbm, ⟨31, _⟩ => ⟨S10000x1, .i32⟩
  | .hbm, ⟨32, _⟩ => ⟨S10000x64, .f32⟩
  | .hbm, ⟨33, _⟩ => ⟨S10000x64, .f32⟩
  | .hbm, ⟨34, _⟩ => ⟨S_, .i32⟩
  | .hbm, ⟨35, _⟩ => ⟨S10000, .i32⟩
  | .hbm, ⟨36, _⟩ => ⟨S10000, .i1⟩
  | .hbm, ⟨37, _⟩ => ⟨S_, .i32⟩
  | .hbm, ⟨38, _⟩ => ⟨S10000, .i32⟩
  | .hbm, ⟨39, _⟩ => ⟨S10000, .i32⟩
  | .hbm, ⟨40, _⟩ => ⟨S10000, .i32⟩
  | .hbm, ⟨41, _⟩ => ⟨S10000x1, .i32⟩
  | .hbm, ⟨42, _⟩ => ⟨S10000x64, .f32⟩
  | .hbm, ⟨43, _⟩ => ⟨S10000x64, .f32⟩
  | .hbm, ⟨44, _⟩ => ⟨S_, .i32⟩
  | .hbm, ⟨45, _⟩ => ⟨S10000, .i32⟩
  | .hbm, ⟨46, _⟩ => ⟨S10000, .i1⟩
  | .hbm, ⟨47, _⟩ => ⟨S_, .i32⟩
  | .hbm, ⟨48, _⟩ => ⟨S10000, .i32⟩
  | .hbm, ⟨49, _⟩ => ⟨S10000, .i32⟩
  | .hbm, ⟨50, _⟩ => ⟨S10000, .i32⟩
  | .hbm, ⟨51, _⟩ => ⟨S10000x1, .i32⟩
  | .hbm, ⟨52, _⟩ => ⟨S10000x64, .f32⟩
  | .hbm, ⟨53, _⟩ => ⟨S10000x64, .f32⟩
  | .hbm, ⟨54, _⟩ => ⟨S_, .f32⟩
  | .hbm, ⟨55, _⟩ => ⟨S10000x64, .f32⟩
  | .hbm, ⟨56, _⟩ => ⟨S10000x64, .f32⟩
  | .hbm, ⟨57, _⟩ => ⟨S60000x64, .f32⟩
  | .hbm, ⟨58, _⟩ => ⟨S_, .f32⟩
  | .hbm, ⟨59, _⟩ => ⟨S60000x64, .f32⟩
  | .hbm, ⟨60, _⟩ => ⟨S60000x64, .f32⟩
  | .hbm, ⟨61, _⟩ => ⟨S1x2000000, .i32⟩
  | .hbm, ⟨62, _⟩ => ⟨S2000000, .i32⟩
  | .hbm, ⟨63, _⟩ => ⟨S1x2000000, .i32⟩
  | .hbm, ⟨64, _⟩ => ⟨S2000000, .i32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x64, .f32⟩
  | .hbm, ⟨74, _⟩ => ⟨S_, .i32⟩
  | .hbm, ⟨75, _⟩ => ⟨S2000000, .i32⟩
  | .hbm, ⟨76, _⟩ => ⟨S2000000, .i1⟩
  | .hbm, ⟨77, _⟩ => ⟨S_, .i32⟩
  | .hbm, ⟨78, _⟩ => ⟨S2000000, .i32⟩
  | .hbm, ⟨79, _⟩ => ⟨S2000000, .i32⟩
  | .hbm, ⟨80, _⟩ => ⟨S2000000, .i32⟩
  | .hbm, ⟨81, _⟩ => ⟨S2000000x1, .i32⟩
  | .hbm, ⟨82, _⟩ => ⟨S2000000x64, .f32⟩
  | .hbm, ⟨83, _⟩ => ⟨S2000000, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192, .f32⟩
  | .local _ .vmem, ⟨5, _⟩ => ⟨S8192, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x64 : S_.BroadcastsInDim S10000x64 (![] : Fin 0 → Fin S10000x64.rank)
  concatenates_S50000x64_S10000x64_S60000x64_d0 : Shape.Concatenates [S50000x64, S10000x64] S60000x64 0
  bcast_S_S60000x64 : S_.BroadcastsInDim S60000x64 (![] : Fin 0 → Fin S60000x64.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  gather_S5x64_S50000x1_S50000x64_1_0_n_n_0_1_164_wf : GatherDims.WF S5x64 S50000x1 S50000x64 [1] [0] [] [0] [] 1 ![1, 64]
  gather_S1000x64_S10000x1_S10000x64_1_0_n_n_0_1_164_wf : GatherDims.WF S1000x64 S10000x1 S10000x64 [1] [0] [] [0] [] 1 ![1, 64]
  gather_S2000x64_S10000x1_S10000x64_1_0_n_n_0_1_164_wf : GatherDims.WF S2000x64 S10000x1 S10000x64 [1] [0] [] [0] [] 1 ![1, 64]
  gather_S10x64_S10000x1_S10000x64_1_0_n_n_0_1_164_wf : GatherDims.WF S10x64 S10000x1 S10000x64 [1] [0] [] [0] [] 1 ![1, 64]
  gather_S60000x64_S2000000x1_S2000000x64_1_0_n_n_0_1_164_wf : GatherDims.WF S60000x64 S2000000x1 S2000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S2000000x64.size a
  hwx0_0 : ∀ i : grid0.Coords, EltTy.bits .f32 = 32 ∨ (Rect.unit (s := S2000000x64) (fun a => cc0_transform_0 i a * S8192x64.size a) (fun a => (Pipeline.Clip.of (cc0_transform_0 i a) (S8192x64.size a) (S2000000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S2000000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x64.size a < S2000000x64.size a
  hwx0_1 : ∀ i : grid0.Coords, EltTy.bits .f32 = 32 ∨ (Rect.unit (s := S2000000x64) (fun a => cc0_transform_1 i a * S8192x64.size a) (fun a => (Pipeline.Clip.of (cc0_transform_1 i a) (S8192x64.size a) (S2000000x64.size a)).extent (S8192x64.size a)) fun a => Pipeline.Clip.inb (Pipeline.Clip.ok_of (hstart0_1 i a))).WholeWords (EltTy.packing .f32)
  hwxs0_1 : ∀ i : grid0.Coords, EltTy.bits .f32 = 32 ∨ (Rect.unit (s := S8192x64) (fun _ => 0) (fun a => (Pipeline.Clip.of (cc0_transform_1 i a) (S8192x64.size a) (S2000000x64.size a)).extent (S8192x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192.size a < S2000000.size a
  hwx0_2 : ∀ i : grid0.Coords, EltTy.bits .f32 = 32 ∨ (Rect.unit (s := S2000000) (fun a => cc0_transform_2 i a * S8192.size a) (fun a => (Pipeline.Clip.of (cc0_transform_2 i a) (S8192.size a) (S2000000.size a)).extent (S8192.size a)) fun a => Pipeline.Clip.inb (Pipeline.Clip.ok_of (hstart0_2 i a))).WholeWords (EltTy.packing .f32)
  hwxs0_2 : ∀ i : grid0.Coords, EltTy.bits .f32 = 32 ∨ (Rect.unit (s := S8192) (fun _ => 0) (fun a => (Pipeline.Clip.of (cc0_transform_2 i a) (S8192.size a) (S2000000.size a)).extent (S8192.size a)) fun a => (Nat.zero_add _).trans_le (Pipeline.Clip.extent_le (Pipeline.Clip.ok_of (hstart0_2 i a)))).WholeWords (EltTy.packing .f32)

variable [Facts₀]

def gather_S5x64_S50000x1_S50000x64_1_0_n_n_0_1_164 : GatherDims S5x64 S50000x1 S50000x64 where
  offsetDims := [1]
  collapsedSliceDims := [0]
  operandBatchingDims := []
  startIndicesBatchingDims := []
  startIndexMap := [0]
  indexVectorDim := 1
  sliceSizes := ![1, 64]
  wf := gather_S5x64_S50000x1_S50000x64_1_0_n_n_0_1_164_wf
def gather_S1000x64_S10000x1_S10000x64_1_0_n_n_0_1_164 : GatherDims S1000x64 S10000x1 S10000x64 where
  offsetDims := [1]
  collapsedSliceDims := [0]
  operandBatchingDims := []
  startIndicesBatchingDims := []
  startIndexMap := [0]
  indexVectorDim := 1
  sliceSizes := ![1, 64]
  wf := gather_S1000x64_S10000x1_S10000x64_1_0_n_n_0_1_164_wf
def gather_S2000x64_S10000x1_S10000x64_1_0_n_n_0_1_164 : GatherDims S2000x64 S10000x1 S10000x64 where
  offsetDims := [1]
  collapsedSliceDims := [0]
  operandBatchingDims := []
  startIndicesBatchingDims := []
  startIndexMap := [0]
  indexVectorDim := 1
  sliceSizes := ![1, 64]
  wf := gather_S2000x64_S10000x1_S10000x64_1_0_n_n_0_1_164_wf
def gather_S10x64_S10000x1_S10000x64_1_0_n_n_0_1_164 : GatherDims S10x64 S10000x1 S10000x64 where
  offsetDims := [1]
  collapsedSliceDims := [0]
  operandBatchingDims := []
  startIndicesBatchingDims := []
  startIndexMap := [0]
  indexVectorDim := 1
  sliceSizes := ![1, 64]
  wf := gather_S10x64_S10000x1_S10000x64_1_0_n_n_0_1_164_wf
def gather_S60000x64_S2000000x1_S2000000x64_1_0_n_n_0_1_164 : GatherDims S60000x64 S2000000x1 S2000000x64 where
  offsetDims := [1]
  collapsedSliceDims := [0]
  operandBatchingDims := []
  startIndicesBatchingDims := []
  startIndexMap := [0]
  indexVectorDim := 1
  sliceSizes := ![1, 64]
  wf := gather_S60000x64_S2000000x1_S2000000x64_1_0_n_n_0_1_164_wf

abbrev win0_0 : Pipeline.Window sig grid0 :=
  Pipeline.Window.ofSpecClip (Memref.whole main_v49) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v56) S8192x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v57) S8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S10000x64 : Shape := ⟨2, ![10000, 64]⟩
abbrev S1000x64 : Shape := ⟨2, ![1000, 64]⟩
abbrev S2000x64 : Shape := ⟨2, ![2000, 64]⟩
abbrev S10x64 : Shape := ⟨2, ![10, 64]⟩
abbrev S5x64 : Shape := ⟨2, ![5, 64]⟩
abbrev S2x2000000 : Shape := ⟨2, ![2, 2000000]⟩
abbrev S10000 : Shape := ⟨1, ![10000]⟩
abbrev S50000 : Shape := ⟨1, ![50000]⟩
abbrev S_ : Shape := ⟨0, ![]⟩
abbrev S50000x1 : Shape := ⟨2, ![50000, 1]⟩
abbrev S10000x1 : Shape := ⟨2, ![10000, 1]⟩
abbrev S60000x64 : Shape := ⟨2, ![60000, 64]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S10000x64, .f32⟩
  | .hbm, ⟨2, _⟩ => ⟨S1000x64, .f32⟩
  | .hbm, ⟨3, _⟩ => ⟨S2000x64, .f32⟩
  | .hbm, ⟨4, _⟩ => ⟨S10x64, .f32⟩
  | .hbm, ⟨5, _⟩ => ⟨S5x64, .f32⟩
  | .hbm, ⟨6, _⟩ => ⟨S2x2000000, .i32⟩
  | .hbm, ⟨7, _⟩ => ⟨S10000, .i32⟩
  | .hbm, ⟨8, _⟩ => ⟨S10000, .i32⟩
  | .hbm, ⟨9, _⟩ => ⟨S10000, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S10000, .i32⟩
  | .hbm, ⟨26, _⟩ => ⟨S10000, .i1⟩
  | .hbm, ⟨27, _⟩ => ⟨S_, .i32⟩
  | .hbm, ⟨28, _⟩ => ⟨S10000, .i32⟩
  | .hbm, ⟨29, _⟩ => ⟨S10000, .i32⟩
  | .hbm, ⟨30, _⟩ => ⟨S10000, .i32⟩
  | .hbm, ⟨31, _⟩ => ⟨S10000x1, .i32⟩
  | .hbm, ⟨32, _⟩ => ⟨S10000x64, .f32⟩
  | .hbm, ⟨33, _⟩ => ⟨S10000x64, .f32⟩
  | .hbm, ⟨34, _⟩ => ⟨S_, .i32⟩
  | .hbm, ⟨35, _⟩ => ⟨S10000, .i32⟩
  | .hbm, ⟨36, _⟩ => ⟨S10000, .i1⟩
  | .hbm, ⟨37, _⟩ => ⟨S_, .i32⟩
  | .hbm, ⟨38, _⟩ => ⟨S10000, .i32⟩
  | .hbm, ⟨39, _⟩ => ⟨S10000, .i32⟩
  | .hbm, ⟨40, _⟩ => ⟨S10000, .i32⟩
  | .hbm, ⟨41, _⟩ => ⟨S10000x1, .i32⟩
  | .hbm, ⟨42, _⟩ => ⟨S10000x64, .f32⟩
  | .hbm, ⟨43, _⟩ => ⟨S10000x64, .f32⟩
  | .hbm, ⟨44, _⟩ => ⟨S_, .i32⟩
  | .hbm, ⟨45, _⟩ => ⟨S10000, .i32⟩
  | .hbm, ⟨46, _⟩ => ⟨S10000, .i1⟩
  | .hbm, ⟨47, _⟩ => ⟨S_, .i32⟩
  | .hbm, ⟨48, _⟩ => ⟨S10000, .i32⟩
  | .hbm, ⟨49, _⟩ => ⟨S10000, .i32⟩
  | .hbm, ⟨50, _⟩ => ⟨S10000, .i32⟩
  | .hbm, ⟨51, _⟩ => ⟨S10000x1, .i32⟩
  | .hbm, ⟨52, _⟩ => ⟨S10000x64, .f32⟩
  | .hbm, ⟨53, _⟩ => ⟨S10000x64, .f32⟩
  | .hbm, ⟨54, _⟩ => ⟨S_, .f32⟩
  | .hbm, ⟨55, _⟩ => ⟨S10000x64, .f32⟩
  | .hbm, ⟨56, _⟩ => ⟨S10000x64, .f32⟩
  | .hbm, ⟨57, _⟩ => ⟨S60000x64, .f32⟩
  | .hbm, ⟨58, _⟩ => ⟨S_, .f32⟩
  | .hbm, ⟨59, _⟩ => ⟨S60000x64, .f32⟩
  | .hbm, ⟨60, _⟩ => ⟨S60000x64, .f32⟩
  | .hbm, ⟨61, _⟩ => ⟨S1x2000000, .i32⟩
  | .hbm, ⟨62, _⟩ => ⟨S2000000, .i32⟩
  | .hbm, ⟨63, _⟩ => ⟨S_, .i32⟩
  | .hbm, ⟨64, _⟩ => ⟨S2000000, .i32⟩
  | .hbm, ⟨65, _⟩ => ⟨S2000000, .i1⟩
  | .hbm, ⟨66, _⟩ => ⟨S_, .i32⟩
  | .hbm, ⟨67, _⟩ => ⟨S2000000, .i32⟩
  | .hbm, ⟨68, _⟩ => ⟨S2000000, .i32⟩
  | .hbm, ⟨69, _⟩ => ⟨S2000000, .i32⟩
  | .hbm, ⟨70, _⟩ => ⟨S2000000x1, .i32⟩
  | .hbm, ⟨71, _⟩ => ⟨S2000000x64, .f32⟩
  | .hbm, ⟨72, _⟩ => ⟨S1x2000000, .i32⟩
  | .hbm, ⟨73, _⟩ => ⟨S2000000, .i32⟩
  | .hbm, ⟨74, _⟩ => ⟨S_, .i32⟩
  | .hbm, ⟨75, _⟩ => ⟨S2000000, .i32⟩
  | .hbm, ⟨76, _⟩ => ⟨S2000000, .i1⟩
  | .hbm, ⟨77, _⟩ => ⟨S_, .i32⟩
  | .hbm, ⟨78, _⟩ => ⟨S2000000, .i32⟩
  | .hbm, ⟨79, _⟩ => ⟨S2000000, .i32⟩
  | .hbm, ⟨80, _⟩ => ⟨S2000000, .i32⟩
  | .hbm, ⟨81, _⟩ => ⟨S2000000x1, .i32⟩
  | .hbm, ⟨82, _⟩ => ⟨S2000000x64, .f32⟩
  | .hbm, ⟨83, _⟩ => ⟨S2000000x64, .f32⟩
  | .hbm, ⟨84, _⟩ => ⟨S_, .f32⟩
  | .hbm, ⟨85, _⟩ => ⟨S2000000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x64 : S_.BroadcastsInDim S10000x64 (![] : Fin 0 → Fin S10000x64.rank)
  concatenates_S50000x64_S10000x64_S60000x64_d0 : Shape.Concatenates [S50000x64, S10000x64] S60000x64 0
  bcast_S_S60000x64 : S_.BroadcastsInDim S60000x64 (![] : Fin 0 → Fin S60000x64.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  reducesTo_S2000000x64_S2000000_d1 : S2000000x64.ReducesTo [1] S2000000
  h_S_ : 0 < S_.numel
  gather_S5x64_S50000x1_S50000x64_1_0_n_n_0_1_164_wf : GatherDims.WF S5x64 S50000x1 S50000x64 [1] [0] [] [0] [] 1 ![1, 64]
  gather_S1000x64_S10000x1_S10000x64_1_0_n_n_0_1_164_wf : GatherDims.WF S1000x64 S10000x1 S10000x64 [1] [0] [] [0] [] 1 ![1, 64]
  gather_S2000x64_S10000x1_S10000x64_1_0_n_n_0_1_164_wf : GatherDims.WF S2000x64 S10000x1 S10000x64 [1] [0] [] [0] [] 1 ![1, 64]
  gather_S10x64_S10000x1_S10000x64_1_0_n_n_0_1_164_wf : GatherDims.WF S10x64 S10000x1 S10000x64 [1] [0] [] [0] [] 1 ![1, 64]
  gather_S60000x64_S2000000x1_S2000000x64_1_0_n_n_0_1_164_wf : GatherDims.WF S60000x64 S2000000x1 S2000000x64 [1] [0] [] [0] [] 1 ![1, 64]

variable [Facts₀]

def gather_S5x64_S50000x1_S50000x64_1_0_n_n_0_1_164 : GatherDims S5x64 S50000x1 S50000x64 where
  offsetDims := [1]
  collapsedSliceDims := [0]
  operandBatchingDims := []
  startIndicesBatchingDims := []
  startIndexMap := [0]
  indexVectorDim := 1
  sliceSizes := ![1, 64]
  wf := gather_S5x64_S50000x1_S50000x64_1_0_n_n_0_1_164_wf
def gather_S1000x64_S10000x1_S10000x64_1_0_n_n_0_1_164 : GatherDims S1000x64 S10000x1 S10000x64 where
  offsetDims := [1]
  collapsedSliceDims := [0]
  operandBatchingDims := []
  startIndicesBatchingDims := []
  startIndexMap := [0]
  indexVectorDim := 1
  sliceSizes := ![1, 64]
  wf := gather_S1000x64_S10000x1_S10000x64_1_0_n_n_0_1_164_wf
def gather_S2000x64_S10000x1_S10000x64_1_0_n_n_0_1_164 : GatherDims S2000x64 S10000x1 S10000x64 where
  offsetDims := [1]
  collapsedSliceDims := [0]
  operandBatchingDims := []
  startIndicesBatchingDims := []
  startIndexMap := [0]
  indexVectorDim := 1
  sliceSizes := ![1, 64]
  wf := gather_S2000x64_S10000x1_S10000x64_1_0_n_n_0_1_164_wf
def gather_S10x64_S10000x1_S10000x64_1_0_n_n_0_1_164 : GatherDims S10x64 S10000x1 S10000x64 where
  offsetDims := [1]
  collapsedSliceDims := [0]
  operandBatchingDims := []
  startIndicesBatchingDims := []
  startIndexMap := [0]
  indexVectorDim := 1
  sliceSizes := ![1, 64]
  wf := gather_S10x64_S10000x1_S10000x64_1_0_n_n_0_1_164_wf
def gather_S60000x64_S2000000x1_S2000000x64_1_0_n_n_0_1_164 : GatherDims S60000x64 S2000000x1 S2000000x64 where
  offsetDims := [1]
  collapsedSliceDims := [0]
  operandBatchingDims := []
  startIndicesBatchingDims := []
  startIndexMap := [0]
  indexVectorDim := 1
  sliceSizes := ![1, 64]
  wf := gather_S60000x64_S2000000x1_S2000000x64_1_0_n_n_0_1_164_wf

class Facts : Prop extends Facts₀ where

variable [Facts]
-- ==== Proof.K.Body.lean ====
/-
  The body of the edge kernel as one separation-logic triple, for any float instance.

  One grid point handles a block of 8192 edges: the two input staging buffers hold the gathered source
  and destination rows, 8192 × 64 each, and the output staging buffer receives, for every edge of the block,
  the sum over the 64 features of the products of the two rows. The body is two whole-buffer loads, a
  (dead) load of the output buffer, and one whole-buffer store of that row-wise sum of products.
-/
import proofs.«427439_j38817914421716_4_alg».proof.Proof.Gen.Kernel.Frame
import proofs.«427439_j38817914421716_4_alg».proof.Proof.Gen.Kernel.Skeleton
import Idealize.ShloMosaic.Lib.Pipeline.Value

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel takes no variant. -/
abbrev 𝒱₀ : Variants := Variants.none

/-- The offsets of a whole-buffer rectangle of the 8192 × 64 block are zero, -/
theorem off2 : (![0, 0] : Fin 2 → ℕ) = fun _ => 0 := funext fun a => by fin_cases a <;> rfl
/-- and so is the offset of the whole-buffer rectangle of the 8192-vector. -/
theorem off1 : (![0] : Fin 1 → ℕ) = fun _ => 0 := funext fun a => by fin_cases a; rfl

/-- One store through the whole-buffer rectangle of the 8192-vector covers every index. -/
theorem cover_out (w : Vec F S8192 .f32) (y : S8192.Idx) :
    ∃ pc ∈ ([⟨Rect.unit (s := S8192) ![0] S8192.size inb_S8192_S8192_0, w⟩] : List (View.Piece (Elt F) S8192 .f32)), y ∈ pc.1.set :=
  View.cover_of_tiled [⟨Rect.unit (s := S8192) ![0] S8192.size inb_S8192_S8192_0, w⟩] S8192.size (by rfl) y

/-- The body on whole staging memrefs: with the two input buffers reading as `x0` and `x1` and the output buffer
    holding anything, it runs to the continuation with the inputs as they were and the output buffer reading as the
    row-wise sum of products of `x0` and `x1` (the store's payload, `k0_pay1 x0 x1`). -/
theorem sound_kernel (c : Dev nD) (i : grid0.Coords)
    (arg1 : Memref sig .tc .vmem S8192x64 .f32) (harg1 : arg1.IsWhole)
    (arg2 : Memref sig .tc .vmem S8192x64 .f32) (harg2 : arg2.IsWhole)
    (arg3 : Memref sig .tc .vmem S8192 .f32) (harg3 : arg3.IsWhole)
    (x0 x1 : Vec F S8192x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) 𝒱₀ c none) Set.univ (cc0__edge_dot_kernel i arg1 harg1 arg2 harg2 arg3 harg3) K := by
  simp only [cc0__edge_dot_kernel_eq_skeleton]; unfold cc0__edge_dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off1, View.readAt_eq_ld, View.readAt_eq_ld,
    View.ld_unit_zero off2, View.ld_unit_zero off2]

end Cert.Proof.K

end
-- ==== Proof.K.Frame.lean ====
/-
  The frame of the edge kernel at any float instance: the program terminates, faults nowhere and leaves its eleven
  argument arrays as they were.

  The grid has 245 points, each a block of 8192 edges, and 245 · 8192 = 2,007,040 overshoots the 2,000,000 edges: the
  last block of each of the three windows overhangs its array by 7040 rows. A fetch of such a block lands only the
  1152 rows inside the array and leaves the rest of the staging buffer at contents nothing names; the write-back of
  the output's last block writes only its first 1152 entries. So the proof data says of each input buffer only what
  it holds on the rows inside the array (the block read off the gathered array), and of the output buffer nothing at
  all: what the body leaves there is a sum over rows that may include unnamed ones, and the frame does not read it.
-/
import proofs.«427439_j38817914421716_4_alg».proof.Proof.K.Body

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The proof data -/

/-- The output window (window 2) is the one whose staging contents are not named. -/
def skipOut : Fin 3 → Bool := fun w => w.val == 2

/-- On core `c`: the arrays as the region finds them; after the body at point `t` each input buffer holds its block of
    the gathered array on the rows inside the array (filled out with the zero word, which nothing reads); the output
    buffer is not named; the invariant is the scoped rest and the generator register; nothing is owed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, h⟩ => Pipeline.Dat.unnamed (cfg := cfg0) ⟨2, h⟩ t
  Φ _ := ΦA spec0 c
  q _ := fullShare
  owed _ := 0

theorem A_eq (c : Dev nD) (w : Fin cfg0.W) : (dats m 0 c).A w = V m c (Pipeline.arrRef spec0 w) := by
  dsimp only [dats]

theorem after_src (c : Dev nD) (t : Fin cfg0.N) :
    (dats m 0 c).after 0 t = win0_0.fill (grid0.coords t) (fun _ => Scalar.ofBits .f32 0#32) (iblk m c 0 t) := by dsimp only [dats]
theorem after_dst (c : Dev nD) (t : Fin cfg0.N) :
    (dats m 0 c).after 1 t = win0_1.fill (grid0.coords t) (fun _ => Scalar.ofBits .f32 0#32) (iblk m c 1 t) := by dsimp only [dats]

/-- Both inputs are fetched at every point, so the body finds each input buffer holding its block on the rows inside
    the array and, past the array's end, whatever `d` the fetch left there. -/
theorem before_src (c : Dev nD) (t : Fin cfg0.N) (d) :
    (dats m 0 c).before 0 t d = win0_0.fill (grid0.coords t) d (iblk m c 0 t) := by
  unfold Dat.before; rw [if_pos (fetch0_0 t)]; rfl
theorem before_dst (c : Dev nD) (t : Fin cfg0.N) (d) :
    (dats m 0 c).before 1 t d = win0_1.fill (grid0.coords t) d (iblk m c 1 t) := by
  unfold Dat.before; rw [if_pos (fetch0_1 t)]; rfl

/-! ## The body obligation -/

/-- What the body is called with at point `t`: the two input buffers just fetched, the output buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- What it returns: each input buffer described on the rows inside the array only, the output buffer at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

/-- The body at any point: it reads the two input buffers whole and leaves them as they were, so each still holds its
    block on the rows inside the array; the invariant and the core's tallies pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_src, before_dst]
  rw [show (dats m 0 c).Φ t.succ = (dats m 0 c).Φ t.castSucc from rfl,
    show (dats m 0 c).owesAt () t.succ = (dats m 0 c).owesAt () t.castSucc from rfl,
    after_src, after_dst, Window.cut_fill, Window.cut_fill]
  iintro ⟨HΦ, Ho, ⟨%d0, H0⟩, ⟨%d1, H1⟩, ⟨%X2, H2⟩⟩
  iapply (sound_kernel c (grid0.coords t) _ _ _ _ _ _ (win0_0.fill (grid0.coords t) d0 (iblk m c 0 t))
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists _; iexact H2

/-- The library's body obligation, the output window not named. -/
theorem body_obligation (c : Dev nD) :
    BodyObligationLoose (dats (F := F) m 0 c) (defs₀ (F := F)) 𝒱₀ () Set.univ skipOut := fun t => by
  rw [bigSep_W0, bigSep_W0]
  exact sound_body m c t

/-! ## The run and the frame -/

set_option backward.isDefEq.respectTransparency.types false in
/-- Every weakly fair execution of @main terminates; the arrays the windows stage end at contents the proof data
    allows, and every other unscoped buffer, the eleven arguments among them, at what the region found there. -/
theorem run_main : θ_run defs (onTc (τ := τ) (main (F := F))) (s₀ m ρ)
    (Pipeline.RDat.FramePost (cfgs 0) (fun c => (dats m 0 c).toRForget skipOut) (V m)) :=
  Pipeline.RDat.θ_run_frame cfgs (0 : Fin 1) launch0 defs₀ 𝒱₀ (fun c => (dats m 0 c).toRForget skipOut) m ρ main
    (hbody := fun c => (body_obligation m c).toRForget)
    (hshare := fun c => ((dats m 0 c).toRForget skipOut).share_full fun _ => rfl)
    (howed := fun _ _ => rfl) (V := V m) (hmain := hmain m 𝒱₀) (hA := A_eq m) (hΦ := fun _ _ => rfl)

/-- The frame: no window stages an argument array, so each argument is among the buffers that bypass the region, and
    no host operation before the region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Proof.K

end
-- ==== Proof.KI.Body.lean ====
/-
  The body of the edge kernel as one separation-logic triple, for any float instance.

  One grid point handles a block of 8192 edges: the two input staging buffers hold the gathered source
  and destination rows, 8192 × 64 each, and the output staging buffer receives, for every edge of the block,
  the sum over the 64 features of the products of the two rows. The body is two whole-buffer loads, a
  (dead) load of the output buffer, and one whole-buffer store of that row-wise sum of products.
-/
import proofs.«427439_j38817914421716_4_alg».proof.Proof.Gen.KernelIdeal.Frame
import proofs.«427439_j38817914421716_4_alg».proof.Proof.Gen.KernelIdeal.Skeleton
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel takes no variant. -/
abbrev 𝒱₀ : Variants := Variants.none

/-- The offsets of a whole-buffer rectangle of the 8192 × 64 block are zero, -/
theorem off2 : (![0, 0] : Fin 2 → ℕ) = fun _ => 0 := funext fun a => by fin_cases a <;> rfl
/-- and so is the offset of the whole-buffer rectangle of the 8192-vector. -/
theorem off1 : (![0] : Fin 1 → ℕ) = fun _ => 0 := funext fun a => by fin_cases a; rfl

/-- One store through the whole-buffer rectangle of the 8192-vector covers every index. -/
theorem cover_out (w : Vec F S8192 .f32) (y : S8192.Idx) :
    ∃ pc ∈ ([⟨Rect.unit (s := S8192) ![0] S8192.size inb_S8192_S8192_0, w⟩] : List (View.Piece (Elt F) S8192 .f32)), y ∈ pc.1.set :=
  View.cover_of_tiled [⟨Rect.unit (s := S8192) ![0] S8192.size inb_S8192_S8192_0, w⟩] S8192.size (by rfl) y

/-- The body on whole staging memrefs: with the two input buffers reading as `x0` and `x1` and the output buffer
    holding anything, it runs to the continuation with the inputs as they were and the output buffer reading as the
    row-wise sum of products of `x0` and `x1` (the store's payload, `k0_pay1 x0 x1`). -/
theorem sound_kernel (c : Dev nD) (i : grid0.Coords)
    (arg1 : Memref sig .tc .vmem S8192x64 .f32) (harg1 : arg1.IsWhole)
    (arg2 : Memref sig .tc .vmem S8192x64 .f32) (harg2 : arg2.IsWhole)
    (arg3 : Memref sig .tc .vmem S8192 .f32) (harg3 : arg3.IsWhole)
    (x0 x1 : Vec F S8192x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) 𝒱₀ c none) Set.univ (cc0__edge_dot_kernel i arg1 harg1 arg2 harg2 arg3 harg3) K := by
  simp only [cc0__edge_dot_kernel_eq_skeleton]; unfold cc0__edge_dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off1, View.readAt_eq_ld, View.readAt_eq_ld,
    View.ld_unit_zero off2, View.ld_unit_zero off2]

end Cert.Proof.KI

end
-- ==== Proof.KI.Pay.lean ====
/-
  The body's arithmetic over the extended reals: the value stored for edge `r` of a block is the sum over the 64
  features of the product of row `r` of the source block and row `r` of the destination block. It depends on row
  `r` of each block and on nothing else.
-/
import proofs.«427439_j38817914421716_4_alg».proof.Proof.Gen.KernelIdeal.Skeleton
import Idealize.ShloMosaic.Lib.Pipeline.Value
import Idealize.ShloMosaic.Lib.ValueIdx
import Idealize.ShloMosaic.PureOps.Ideal.Laws

noncomputable section

namespace Cert.Proof.KI

open Cert.KernelIdeal Cert.KernelIdeal.Gen
open Idealize.ShloMosaic Idealize.ShloMosaic.ValueIdx

/-- Entry `l` of row `e`: the index of an `n × 64` array with `e`'s one coordinate first and `l` second. -/
abbrev rowAt {n : Nat} (e : (⟨1, ![n]⟩ : Shape).Idx) (l : Fin 64) : (⟨2, ![n, 64]⟩ : Shape).Idx := fun a => match a with
  | ⟨0, _⟩ => ⟨(e 0).val, (e 0).isLt⟩
  | ⟨1, _⟩ => ⟨l.val, l.isLt⟩

/-- The per-edge dot product of two `n × 64` arrays of extended reals. -/
def rowDots {n : Nat} (src dst : (⟨2, ![n, 64]⟩ : Shape).Idx → EReal) : (⟨1, ![n]⟩ : Shape).Idx → EReal :=
  fun e => ∑ l : Fin 64, src (rowAt e l) * dst (rowAt e l)

/-- The stored payload at an edge of the block is that edge's dot product: the lane sum over the one reduced axis is
    the sum over the 64 lanes of the pointwise product, and the two shape casts are identities. -/
theorem pay_apply (x0 x1 : Vec Ideal S8192x64 .f32) (i : S8192.Idx) :
    k0_pay1 (F := Ideal) x0 x1 i = rowDots x0 x1 i := by
  unfold k0_pay1 rowDots
  refine (Ideal.multiReduction_add_single _ 0x00000000#32 reduces_S8192x64_S8192 (.inl rfl) rfl i).trans ?_
  refine Finset.sum_congr rfl fun l _ => ?_
  have e : Shape.Reduces.lift reduces_S8192x64_S8192 i l = rowAt i l :=
    funext fun a => Fin.ext (by match a with | ⟨0, _⟩ => rfl | ⟨1, _⟩ => rfl)
  rw [e, shapeCast_self, shapeCast_self]
  rfl

end Cert.Proof.KI

end
-- ==== Proof.KI.Run.lean ====
/-
  The idealized edge kernel's run over the extended reals, with the result array named.

  The grid has 245 points, each a block of 8192 edges; the last block overhangs the 2,000,000 edges by 7040. A fetch of
  an overhanging block lands the 1152 rows inside the array and leaves the rest of the staging buffer at contents
  nothing names, and the last write-back writes the output buffer's first 1152 entries only. Since the value stored for
  an edge is the dot product of that edge's own two rows, the entries written back never depend on the unnamed rows:
  that is what lets the proof data name the output buffer on the entries inside the array. Block by block the result
  array is then the per-edge dot product of the two gathered arrays, and the blocks cover it.
-/
import proofs.«427439_j38817914421716_4_alg».proof.Proof.KI.Body
import proofs.«427439_j38817914421716_4_alg».proof.Proof.KI.Pay

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided over the grid -/

/-- At every point the three windows take block `t` on the edge axis, the inputs' block index on the feature axis is 0,
    the three windows are cut alike on the edge axis and not at all on the feature axis, and the block's part inside
    the array reaches the next block's start or the array's end. -/
theorem sched : ∀ t : Fin cfg0.N,
    win0_0.index t 0 = t.val ∧ win0_0.index t 1 = 0 ∧ win0_1.index t 0 = t.val ∧ win0_1.index t 1 = 0
    ∧ win0_2.index t 0 = t.val
    ∧ win0_0.xsize (grid0.coords t) 0 = win0_2.xsize (grid0.coords t) 0 ∧ win0_0.xsize (grid0.coords t) 1 = 64
    ∧ win0_1.xsize (grid0.coords t) 0 = win0_2.xsize (grid0.coords t) 0 ∧ win0_1.xsize (grid0.coords t) 1 = 64
    ∧ ((t.val + 1) * 8192 ≤ t.val * 8192 + win0_2.xsize (grid0.coords t) 0 ∨ t.val * 8192 + win0_2.xsize (grid0.coords t) 0 = 2000000) :=
  (by decide +kernel : ∀ t : Fin grid0.N, _)

/-! ## The proof data -/

/-- The gathered source and destination rows as the region finds them. -/
abbrev srcRows (c : Dev nD) : S2000000x64.Idx → EReal := V m c main_v49
abbrev dstRows (c : Dev nD) : S2000000x64.Idx → EReal := V m c main_v56

/-- On core `c`: the arrays as the region finds them; after the body at point `t` each input buffer holds its block of
    the gathered array on the rows inside the array (filled out with the zero word, which nothing reads) and the
    output buffer the dot products of those two; the invariant is the scoped rest and the generator register. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => k0_pay1 (F := Ideal) (win0_0.fill (grid0.coords t) (fun _ => (0 : EReal)) (iblk m c 0 t))
        (win0_1.fill (grid0.coords t) (fun _ => (0 : EReal)) (iblk m c 1 t))
  Φ _ := ΦA spec0 c
  q _ := fullShare
  owed _ := 0

theorem A_eq (c : Dev nD) (w : Fin cfg0.W) : (dats m 0 c).A w = V m c (Pipeline.arrRef spec0 w) := by
  dsimp only [dats]

theorem after_src (c : Dev nD) (t : Fin cfg0.N) :
    (dats m 0 c).after 0 t = win0_0.fill (grid0.coords t) (fun _ => (0 : EReal)) (iblk m c 0 t) := by dsimp only [dats]
theorem after_dst (c : Dev nD) (t : Fin cfg0.N) :
    (dats m 0 c).after 1 t = win0_1.fill (grid0.coords t) (fun _ => (0 : EReal)) (iblk m c 1 t) := by dsimp only [dats]
theorem after_out (c : Dev nD) (t : Fin cfg0.N) :
    (dats m 0 c).after 2 t = k0_pay1 (F := Ideal) (win0_0.fill (grid0.coords t) (fun _ => (0 : EReal)) (iblk m c 0 t))
        (win0_1.fill (grid0.coords t) (fun _ => (0 : EReal)) (iblk m c 1 t)) := by dsimp only [dats]

/-- Both inputs are fetched at every point: the body finds each input buffer holding its block on the rows inside the
    array and, past the array's end, whatever `d` the fetch left there. -/
theorem before_src (c : Dev nD) (t : Fin cfg0.N) (d) :
    (dats m 0 c).before 0 t d = win0_0.fill (grid0.coords t) d (iblk m c 0 t) := by
  unfold Dat.before; rw [if_pos (fetch0_0 t)]; rfl
theorem before_dst (c : Dev nD) (t : Fin cfg0.N) (d) :
    (dats m 0 c).before 1 t d = win0_1.fill (grid0.coords t) d (iblk m c 1 t) := by
  unfold Dat.before; rw [if_pos (fetch0_1 t)]; rfl

/-! ## The entries written back do not depend on the unnamed rows -/

/-- Row `j`, lane `l` of the part of an input block inside the array, for `j` an entry of the part of the output block
    inside the array (the three windows are cut alike). -/
def srcAt (t : Fin cfg0.N) (j : (win0_2.xblock (grid0.coords t)).Idx) (l : Fin 64) : (win0_0.xblock (grid0.coords t)).Idx :=
  fun a => match a with
    | ⟨0, _⟩ => ⟨(j 0).val, Nat.lt_of_lt_of_eq (j 0).isLt (sched t).2.2.2.2.2.1.symm⟩
    | ⟨1, _⟩ => ⟨l.val, Nat.lt_of_lt_of_eq l.isLt (sched t).2.2.2.2.2.2.1.symm⟩
def dstAt (t : Fin cfg0.N) (j : (win0_2.xblock (grid0.coords t)).Idx) (l : Fin 64) : (win0_1.xblock (grid0.coords t)).Idx :=
  fun a => match a with
    | ⟨0, _⟩ => ⟨(j 0).val, Nat.lt_of_lt_of_eq (j 0).isLt (sched t).2.2.2.2.2.2.2.1.symm⟩
    | ⟨1, _⟩ => ⟨l.val, Nat.lt_of_lt_of_eq l.isLt (sched t).2.2.2.2.2.2.2.2.1.symm⟩

/-- The part of the output buffer inside the array, after the body ran on input buffers holding the blocks `b0`, `b1`
    on the rows inside the array and anything (`d0`, `d1`) past it: the dot products of the blocks' rows. -/
theorem cut_pay (t : Fin cfg0.N) (d0 : S8192x64.Idx → EReal) (d1 : S8192x64.Idx → EReal)
    (b0 : (win0_0.xblock (grid0.coords t)).Idx → EReal) (b1 : (win0_1.xblock (grid0.coords t)).Idx → EReal) :
    win0_2.cut (grid0.coords t) (k0_pay1 (F := Ideal) (win0_0.fill (grid0.coords t) d0 b0) (win0_1.fill (grid0.coords t) d1 b1))
      = fun j => ∑ l : Fin 64, b0 (srcAt t j l) * b1 (dstAt t j l) := by
  funext j
  refine (pay_apply _ _ (win0_2.xinj (grid0.coords t) j)).trans ?_
  refine Finset.sum_congr rfl fun l _ => ?_
  have e0 : rowAt (win0_2.xinj (grid0.coords t) j) l = win0_0.xinj (grid0.coords t) (srcAt t j l) :=
    funext fun a => Fin.ext (by match a with | ⟨0, _⟩ => rfl | ⟨1, _⟩ => rfl)
  have e1 : rowAt (win0_2.xinj (grid0.coords t) j) l = win0_1.xinj (grid0.coords t) (dstAt t j l) :=
    funext fun a => Fin.ext (by match a with | ⟨0, _⟩ => rfl | ⟨1, _⟩ => rfl)
  exact congrArg₂ (· * ·) ((congrArg _ e0).trans (win0_0.fill_xinj (grid0.coords t) d0 b0 (srcAt t j l)))
    ((congrArg _ e1).trans (win0_1.fill_xinj (grid0.coords t) d1 b1 (dstAt t j l)))

/-! ## The body obligation -/

/-- What the body is called with at point `t`: the two input buffers just fetched, the output buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: every buffer described on its part inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point. It leaves the inputs as it found them, and the output buffer at the dot products of what the
    input buffers held; on the entries inside the array those are the dot products of the blocks (`cut_pay`, whatever
    lay past the array's end), which is what the proof data names. -/
theorem sound_body (c : Dev nD) (t : Fin cfg0.N) :
    bodyPre m c t ⊢ wp frame (wpE (defs₀ (F := Ideal)) 𝒱₀ c none) Set.univ (bodyAt0 t) (fun _ => bodyPost m c t) := by
  unfold bodyPre bodyPost bodyAt0
  simp only [before_src, before_dst]
  rw [show (dats m 0 c).Φ t.succ = (dats m 0 c).Φ t.castSucc from rfl,
    show (dats m 0 c).owesAt () t.succ = (dats m 0 c).owesAt () t.castSucc from rfl,
    after_src, after_dst, after_out, Window.cut_fill, Window.cut_fill]
  iintro ⟨HΦ, Ho, ⟨%d0, H0⟩, ⟨%d1, H1⟩, ⟨%d2, H2⟩⟩
  iapply (sound_kernel (F := Ideal) c (grid0.coords t) _ _ _ _ _ _ (win0_0.fill (grid0.coords t) d0 (iblk m c 0 t))
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists (k0_pay1 (F := Ideal) (win0_0.fill (grid0.coords t) d0 (iblk m c 0 t)) (win0_1.fill (grid0.coords t) d1 (iblk m c 1 t)))
  rw [win0_2.fill_congr_cut (grid0.coords t)
    ((cut_pay t d0 d1 (iblk m c 0 t) (iblk m c 1 t)).trans (cut_pay t _ _ (iblk m c 0 t) (iblk m c 1 t)).symm)]
  iexact H2

/-- The library's body obligation. -/
theorem body_obligation (c : Dev nD) :
    BodyObligationLoose (dats m 0 c) (defs₀ (F := Ideal)) 𝒱₀ () Set.univ := fun t => by
  rw [bigSep_W0, bigSep_W0]
  exact sound_body m c t

/-! ## The run -/

set_option backward.isDefEq.respectTransparency.types false in
/-- Every weakly fair execution of @main terminates, with every array a window stages at what the write-backs leave
    and every other unscoped buffer at what the region found there. -/
theorem run_main : θ_run defs (onTc (τ := τ) (main (F := Ideal))) (s₀ m ρ) (Pipeline.FramePost cfgs (dats m) 0 (V m)) :=
  Pipeline.θ_run_frame cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := A_eq m) (hΦ := fun _ _ => rfl)

/-! ## The result array -/

/-- The per-edge dot products of the gathered source and destination rows: what the result array ends holding. -/
abbrev edgeDots (c : Dev nD) : S2000000.Idx → EReal := rowDots (srcRows m c) (dstRows m c)

/-- An entry of the part of the source window's block inside the array is the gathered array's entry 8192·t rows
    further down, -/
theorem src_blk_apply (c : Dev nD) (t : Fin cfg0.N) (x : (win0_0.xblock (grid0.coords t)).Idx) (k : S2000000x64.Idx)
    (hk0 : (k 0).val = t.val * 8192 + (x 0).val) (hk1 : (k 1).val = (x 1).val) :
    iblk m c 0 t x = srcRows m c k := by
  unfold iblk
  rw [View.read_apply]
  show V m c main_v49 _ = V m c main_v49 _
  congr 1
  funext a
  apply Fin.ext
  match a with
  | ⟨0, _⟩ => show win0_0.index t 0 * 8192 + 1 * (x 0).val = (k 0).val; rw [(sched t).1, hk0]; omega
  | ⟨1, _⟩ => show win0_0.index t 1 * 64 + 1 * (x 1).val = (k 1).val; rw [(sched t).2.1, hk1]; omega

/-- and likewise for the destination window. -/
theorem dst_blk_apply (c : Dev nD) (t : Fin cfg0.N) (x : (win0_1.xblock (grid0.coords t)).Idx) (k : S2000000x64.Idx)
    (hk0 : (k 0).val = t.val * 8192 + (x 0).val) (hk1 : (k 1).val = (x 1).val) :
    iblk m c 1 t x = dstRows m c k := by
  unfold iblk
  rw [View.read_apply]
  show V m c main_v56 _ = V m c main_v56 _
  congr 1
  funext a
  apply Fin.ext
  match a with
  | ⟨0, _⟩ => show win0_1.index t 0 * 8192 + 1 * (x 0).val = (k 0).val; rw [(sched t).2.2.1, hk0]; omega
  | ⟨1, _⟩ => show win0_1.index t 1 * 64 + 1 * (x 1).val = (k 1).val; rw [(sched t).2.2.2.1, hk1]; omega

/-- What point `t` writes back is block `t` of the per-edge dot products, cut at the array's end. -/
theorem flushed_eq (c : Dev nD) (t : Fin cfg0.N) (hf : (cfg0.win 2).flush t = true) :
    (dats m 0 c).flushed 2 t = ((cfg0.win 2).blk t).view.read (Elt Ideal) (edgeDots m c) := by
  show win0_2.cut (grid0.coords t) ((dats m 0 c).after 2 t) = _
  rw [after_out, cut_pay]
  funext j
  rw [View.read_apply]
  show _ = rowDots (srcRows m c) (dstRows m c) _
  unfold rowDots
  refine Finset.sum_congr rfl fun l _ => ?_
  refine congrArg₂ (· * ·) (src_blk_apply m c t _ _ ?_ rfl) (dst_blk_apply m c t _ _ ?_ rfl)
  · show win0_2.index t 0 * 8192 + 1 * (j 0).val = t.val * 8192 + (j 0).val
    rw [(sched t).2.2.2.2.1]; omega
  · show win0_2.index t 0 * 8192 + 1 * (j 0).val = t.val * 8192 + (j 0).val
    rw [(sched t).2.2.2.2.1]; omega

/-- Every edge lies in the part inside the array of the block of the point `e / 8192`. -/
theorem covered (i : S2000000.Idx) :
    ∃ t : Fin cfg0.N, (cfg0.win 2).flush t = true ∧ i ∈ ((cfg0.win 2).blk t).view.set := by
  have hi : (i 0).val < 2000000 := (i 0).isLt
  have hN : cfg0.N = 245 := N_0
  let t : Fin cfg0.N := ⟨(i 0).val / 8192, by rw [hN]; omega⟩
  refine ⟨t, flush0_2 t, ?_⟩
  show i ∈ ((View.whole main_v57).slice (win0_2.rect t)).set
  rw [View.set_slice_whole, Rect.mem_set_unit]
  intro a
  match a with
  | ⟨0, _⟩ =>
    show win0_2.index t 0 * 8192 ≤ (i 0).val ∧ (i 0).val < win0_2.index t 0 * 8192 + win0_2.xsize (grid0.coords t) 0
    have hs := (sched t).2.2.2.2.2.2.2.2.2
    have ht : t.val = (i 0).val / 8192 := rfl
    rw [(sched t).2.2.2.2.1]
    omega

/-- So the result array ends holding the per-edge dot products. -/
theorem final (c : Dev nD) : (dats m 0 c).arrAt 2 cfg0.N = edgeDots m c :=
  (dats m 0 c).arrAt_eq_of_cover 2 (edgeDots m c) (flushed_eq m c) covered

/-- The run, read: the result array at the per-edge dot products of the gathered rows, the arguments unchanged (no
    window stages an argument, and no host operation before the region writes one). -/
theorem run : θ_run defs (onTc (τ := τ) (main (F := Ideal))) ⟨m, fun _ => 0, ρ⟩ (fun r => ∀ c : Dev nD,
      r.2.mem ((c.tc : Thread nD τ).loc main_v57) = edgeDots m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Proof.KI

end
-- ==== Proof.GatheredSrc.lean ====
/-
  The gathered source rows, as the kernel's region finds them, are the reference's own stage for them: the host
  operations before the region are the reference's, operation for operation, applied to the same arguments.
-/
import proofs.«427439_j38817914421716_4_alg».proof.Proof.Gen.KernelIdeal.Frame
import proofs.«427439_j38817914421716_4_alg».proof.Proof.Gen.ReferenceIdeal.Read
import Idealize.ShloMosaic.Lib.StableHlo.Run

noncomputable section

namespace Cert.Proof.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 16384 in
set_option maxHeartbeats 30000000 in
theorem src_eq (c : Dev Cert.KernelIdeal.nD) :
    (Cert.KernelIdeal.Gen.V m c Cert.KernelIdeal.main_v49 : Cert.KernelIdeal.S2000000x64.Idx → EReal)
      = Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  dsimp only [Cert.KernelIdeal.Gen.V, Cert.KernelIdeal.Gen.hostOps0]
  after_results_simp
  rfl

end Cert.Proof.Bridge

end
-- ==== Proof.GatheredDst.lean ====
/-
  The gathered destination rows, as the kernel's region finds them, are the reference's own stage for them: the host
  operations before the region are the reference's, operation for operation, applied to the same arguments.
-/
import proofs.«427439_j38817914421716_4_alg».proof.Proof.Gen.KernelIdeal.Frame
import proofs.«427439_j38817914421716_4_alg».proof.Proof.Gen.ReferenceIdeal.Read
import Idealize.ShloMosaic.Lib.StableHlo.Run

noncomputable section

namespace Cert.Proof.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 16384 in
set_option maxHeartbeats 30000000 in
theorem dst_eq (c : Dev Cert.KernelIdeal.nD) :
    (Cert.KernelIdeal.Gen.V m c Cert.KernelIdeal.main_v56 : Cert.KernelIdeal.S2000000x64.Idx → EReal)
      = Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  dsimp only [Cert.KernelIdeal.Gen.V, Cert.KernelIdeal.Gen.hostOps0]
  after_results_simp
  rfl

end Cert.Proof.Bridge

end
-- ==== Proof.Bridge.lean ====
/-
  The two sides are one function. The kernel's host prefix builds the node table and gathers the source and
  destination rows by exactly the operations the reference uses, so the two gathered arrays the kernel's region
  finds are the reference's own stages (`src_eq`, `dst_eq`); the reference then multiplies them pointwise and sums
  each row from zero, which over the extended reals is the per-edge dot product the kernel's blocks piece together.
-/
import proofs.«427439_j38817914421716_4_alg».proof.Proof.KI.Run
import proofs.«427439_j38817914421716_4_alg».proof.Proof.GatheredSrc
import proofs.«427439_j38817914421716_4_alg».proof.Proof.GatheredDst

noncomputable section

namespace Cert.Proof.Bridge

open Idealize.ShloMosaic Idealize.ShloMosaic.TcCoe Idealize.SL.Sem
open Cert.Proof.KI

variable (m : (ℓ : Loc Cert.KernelIdeal.nD Cert.KernelIdeal.τ Cert.KernelIdeal.sig) → Buf (Elt Ideal) ℓ)

/-- The reference's result, of the kernel's arguments, is the per-edge dot product of the gathered rows: its row sum
    starts from the zero word, which is the real 0, and its product is the pointwise product. -/
theorem ref_eq (c : Dev Cert.KernelIdeal.nD) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = edgeDots m c := by
  funext i
  rw [Cert.ReferenceIdeal.Read.val_main_v58_apply]
  rw [show Cert.ReferenceIdeal.Read.val_main_cst_13 (F := Ideal) (Shape.Idx.first Cert.ReferenceIdeal.Facts₀.h_S_) = (0 : EReal)
    from Ideal.ofBits_zero_f32, zero_add]
  show _ = rowDots (srcRows m c) (dstRows m c) i
  unfold rowDots
  refine Finset.sum_congr rfl fun l _ => ?_
  rw [Cert.ReferenceIdeal.Read.val_main_v57_apply, ← src_eq m c, ← dst_eq m c]
  have e : Cert.ReferenceIdeal.Read.idx_main_v58 i l = rowAt i l :=
    funext fun a => Fin.ext (by match a with | ⟨0, _⟩ => rfl | ⟨1, _⟩ => rfl)
  rw [e]
  rfl

end Cert.Proof.Bridge

end
-- ==== Proof.lean ====
/-
  The edge-scoring kernel against its jnp reference, over the extended reals.

  Both programs build the same node table by host operations (two fused embeddings, concatenated and scaled by the
  same word) and gather its rows at the two endpoints of each of the 2,000,000 edges; the score of an edge is the sum
  over the 64 features of the products of its two rows. The reference multiplies and sums on the host; the kernel
  does it in a pallas_call over 245 blocks of 8192 edges, the last block overhanging the array. A sum of products is
  the same extended real however it is tiled, so nothing about the inputs is used beyond their types.

  * the word-level kernel's frame: `Proof/K/Frame.lean` (what the output buffer holds is not named there: at the
    word level a row sum is an unspecified function of the whole block, overhanging rows included);
  * the idealized kernel's run with the result array named: `Proof/KI/Run.lean`;
  * the reference's run is the generated one; that its result is the same function: `Proof/Bridge.lean`;
  * the ideal pass rewrote nothing, so there is nothing to preserve.
-/
import proofs.«427439_j38817914421716_4_alg».proof.Defs
import proofs.«427439_j38817914421716_4_alg».proof.Proof.Gen.Kernel
import proofs.«427439_j38817914421716_4_alg».proof.Proof.Gen.KernelIdeal
import proofs.«427439_j38817914421716_4_alg».proof.Proof.Gen.ReferenceIdeal
import proofs.«427439_j38817914421716_4_alg».proof.Proof.Gen.Pre_finite_inputs
import proofs.«427439_j38817914421716_4_alg».proof.Proof.K.Frame
import proofs.«427439_j38817914421716_4_alg».proof.Proof.Bridge
import Idealize.ShloMosaic.Adequacy
import Idealize.ShloMosaic.Init

noncomputable section

namespace Cert.Proof

open Idealize.ShloMosaic Idealize.SL.Sem

/-- The word-level kernel terminates, faults nowhere and leaves its arguments unchanged. -/
theorem frame_k : Cert.frame_Kernel := fun m ρ _ => Cert.Proof.K.frame (F := Bits) m ρ

/-- So does the idealized kernel: its run with the result dropped. -/
theorem frame_ki : Cert.frame_KernelIdeal := fun m ρ _ =>
  (θ_run Cert.KernelIdeal.defs _ _).mono (fun _ h c => (h c).2) (Cert.Proof.KI.run m ρ)

/-- So does the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the per-edge dot products of the
    gathered rows: the kernel block by block, the reference as one product and one row sum. -/
theorem algebraic : Cert.algebraic_KernelIdeal_ReferenceIdeal := by
  intro m ρ m' ρ' _ hagree
  refine ⟨fun c => Cert.Proof.KI.edgeDots m c, Cert.Proof.KI.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨h0, h1, h2, h3, h4, h5, h6, h7, h8, h9, h10⟩ := hagree c
  rw [h0, h1, h2, h3, h4, h5, h6, h7, h8, h9, h10]
  exact Cert.Proof.Bridge.ref_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
